-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x100 : Shape := ⟨2, ![131072, 100]⟩
abbrev S131072x256 : Shape := ⟨2, ![131072, 256]⟩
abbrev S100x1024 : Shape := ⟨2, ![100, 1024]⟩
abbrev S256x1024 : Shape := ⟨2, ![256, 1024]⟩
abbrev S1024 : Shape := ⟨1, ![1024]⟩
abbrev S_ : Shape := ⟨0, ![]⟩

class Facts : Prop where
  bcast_S_S131072x100 : S_.BroadcastsInDim S131072x100 (![] : Fin 0 → Fin S131072x100.rank)
  reducesTo_S131072x100_S_d0_1 : S131072x100.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S100x1024 : S_.BroadcastsInDim S100x1024 (![] : Fin 0 → Fin S100x1024.rank)
  reducesTo_S100x1024_S_d0_1 : S100x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x1024 .f32) (main_arg5 : FVec F S1024 .f32) (main_arg6 : FVec F S1024 .f32) (main_v13 : IVec S_ 1) (main_v16 : IVec S100x1024 1) : IVec S_ 1 :=
  let main_c_5 : IVec S_ 1 := constantI S_ 1 1#1
  let main_v17 : IVec S_ 1 := (fun x v => Host.reduce IntOp.andi x v reducesTo_S100x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S131072x100 .f32) (main_arg1 : FVec F S131072x256 .f32) (main_arg2 : FVec F S131072x256 .f32) (main_arg3 : FVec F S100x1024 .f32) (main_arg4 : FVec F S256x1024 .f32) (main_arg5 : FVec F S1024 .f32) (main_arg6 : FVec F S1024 .f32) : IVec S_ 1 :=
  let main_v0 : FVec F S131072x100 .f32 := Host.absf main_arg0
  let main_cst : FVec F S_ .f32 := constant S_ .f32 0x7F800000#32
  let main_v1 : FVec F S131072x100 .f32 := broadcastInDim S131072x100 ![] bcast_S_S131072x100 main_cst
  let main_v2 : IVec S131072x100 1 := cmpf .olt main_v0 main_v1
  let main_c : IVec S_ 1 := constantI S_ 1 1#1
  let main_v3 : IVec S_ 1 := (fun x v => Host.reduce IntOp.andi x v reducesTo_S131072x100_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S100x1024 .f32 := Host.absf main_arg3
  let main_cst_4 : FVec F S_ .f32 := constant S_ .f32 0x7F800000#32
  let main_v15 : FVec F S100x1024 .f32 := broadcastInDim S100x1024 ![] bcast_S_S100x1024 main_cst_4
  let main_v16 : IVec S100x1024 1 := cmpf .olt main_v14 main_v15
  fn_part1 (F := F) main_arg4 main_arg5 main_arg6 main_v13 main_v16
-- ==== Kernel.lean ====
abbrev S131072x100 : Shape := ⟨2, ![131072, 100]⟩
abbrev S131072x256 : Shape := ⟨2, ![131072, 256]⟩
abbrev S100x1024 : Shape := ⟨2, ![100, 1024]⟩
abbrev S256x1024 : Shape := ⟨2, ![256, 1024]⟩
abbrev S1024 : Shape := ⟨1, ![1024]⟩
abbrev S4096x100 : Shape := ⟨2, ![4096, 100]⟩
abbrev S4096x256 : Shape := ⟨2, ![4096, 256]⟩
abbrev S4096x1024 : Shape := ⟨2, ![4096, 1024]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S131072x100, .f32⟩
  | .hbm, ⟨1, _⟩ => ⟨S131072x256, .f32⟩
  | .hbm, ⟨2, _⟩ => ⟨S131072x256, .f32⟩
  | .hbm, ⟨3, _⟩ => ⟨S100x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S131072x256, .f32⟩
  | .hbm, ⟨8, _⟩ => ⟨S131072x256, .f32⟩
  | .local _ .vmem, ⟨0, _⟩ => ⟨S4096x100, .f32⟩
  | .local _ .vmem, ⟨1, _⟩ => ⟨S4096x100, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S100x1024, .f32⟩
  | .local _ .vmem, ⟨7, _⟩ => ⟨S256x1024, .f32⟩
  | .local _ .vmem, ⟨8, _⟩ => ⟨S1024, .f32⟩
  | .local _ .vmem, ⟨9, _⟩ => ⟨S1024, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | _, _ => ⟨S131072x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S4096x100_S4096x100_0_0 : ∀ a, (![0, 0] : Fin 2 → Nat) a + S4096x100.size a ≤ S4096x100.size a
  h_S4096x100 : 0 < S4096x100.numel
  inb_S100x1024_S100x1024_0_0 : ∀ a, (![0, 0] : Fin 2 → Nat) a + S100x1024.size a ≤ S100x1024.size a
  h_S100x1024 : 0 < S100x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S4096x1024 : S1x1024.Broadcasts S4096x1024
  inb_S4096x256_S4096x256_0_0 : ∀ a, (![0, 0] : Fin 2 → Nat) a + S4096x256.size a ≤ S4096x256.size a
  h_S4096x256 : 0 < S4096x256.numel
  inb_S256x1024_S256x1024_0_0 : ∀ a, (![0, 0] : Fin 2 → Nat) a + S256x1024.size a ≤ S256x1024.size a
  h_S256x1024 : 0 < S256x1024.numel
  slices_S4096x1024_o0_0_S4096x256 : S4096x1024.Slices ![0, 0] S4096x256
  slices_S4096x1024_o0_256_S4096x256 : S4096x1024.Slices ![0, 256] S4096x256
  slices_S4096x1024_o0_512_S4096x256 : S4096x1024.Slices ![0, 512] S4096x256
  slices_S4096x1024_o0_768_S4096x256 : S4096x1024.Slices ![0, 768] S4096x256
  dot_S4096x100_S100x1024_S4096x1024_1_0_0_1_n_n_wf : DotDims.WF S4096x100 S100x1024 S4096x1024 [1] [0] [0] [1] [] []
  dot_S4096x256_S256x1024_S4096x1024_1_0_0_1_n_n_wf : DotDims.WF S4096x256 S256x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S131072x100.size a
  hwx0_0 : ∀ i : grid0.Coords, EltTy.bits .f32 = 32 ∨ (Rect.block (s := S131072x100) S4096x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S131072x256.size a
  hwx0_2 : ∀ i : grid0.Coords, EltTy.bits .f32 = 32 ∨ (Rect.block (s := S131072x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x1024.size a ≤ S100x1024.size a
  hwx0_3 : ∀ i : grid0.Coords, EltTy.bits .f32 = 32 ∨ (Rect.block (s := S100x1024) S100x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S131072x256.size a
  hwx0_7 : ∀ i : grid0.Coords, EltTy.bits .f32 = 32 ∨ (Rect.block (s := S131072x256) S4096x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S131072x256.size a
  hwx0_8 : ∀ i : grid0.Coords, EltTy.bits .f32 = 32 ∨ (Rect.block (s := S131072x256) S4096x256.size (cc0_transform_8 i) (hinb0_8 i)).WholeWords (EltTy.packing .f32)

variable [Facts₀]

def dot_S4096x100_S100x1024_S4096x1024_1_0_0_1_n_n : DotDims S4096x100 S100x1024 S4096x1024 where
  lhsContracting := [1]
  rhsContracting := [0]
  lhsNonContracting := [0]
  rhsNonContracting := [1]
  lhsBatch := []
  rhsBatch := []
  wf := dot_S4096x100_S100x1024_S4096x1024_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf

abbrev win0_0 : Pipeline.Window sig grid0 :=
  Pipeline.Window.ofSpec (Memref.whole main_arg0) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S4096x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S4096x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x100 : Shape := ⟨2, ![131072, 100]⟩
abbrev S131072x256 : Shape := ⟨2, ![131072, 256]⟩
abbrev S100x1024 : Shape := ⟨2, ![100, 1024]⟩
abbrev S256x1024 : Shape := ⟨2, ![256, 1024]⟩
abbrev S1024 : Shape := ⟨1, ![1024]⟩
abbrev S131072x1024 : Shape := ⟨2, ![131072, 1024]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S131072x100, .f32⟩
  | .hbm, ⟨1, _⟩ => ⟨S131072x256, .f32⟩
  | .hbm, ⟨2, _⟩ => ⟨S131072x256, .f32⟩
  | .hbm, ⟨3, _⟩ => ⟨S100x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S131072x1024, .f32⟩
  | .hbm, ⟨8, _⟩ => ⟨S1x1024, .f32⟩
  | .hbm, ⟨9, _⟩ => ⟨S131072x1024, .f32⟩
  | .hbm, ⟨10, _⟩ => ⟨S131072x1024, .f32⟩
  | .hbm, ⟨11, _⟩ => ⟨S131072x1024, .f32⟩
  | .hbm, ⟨12, _⟩ => ⟨S1x1024, .f32⟩
  | .hbm, ⟨13, _⟩ => ⟨S131072x1024, .f32⟩
  | .hbm, ⟨14, _⟩ => ⟨S131072x1024, .f32⟩
  | .hbm, ⟨15, _⟩ => ⟨S131072x1024, .f32⟩
  | .hbm, ⟨16, _⟩ => ⟨S131072x256, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | .hbm, ⟨39, _⟩ => ⟨S_, .f32⟩
  | .hbm, ⟨40, _⟩ => ⟨S131072x256, .f32⟩
  | .hbm, ⟨41, _⟩ => ⟨S131072x256, .f32⟩
  | .hbm, ⟨42, _⟩ => ⟨S_, .f32⟩
  | .hbm, ⟨43, _⟩ => ⟨S131072x256, .f32⟩
  | .hbm, ⟨44, _⟩ => ⟨S131072x256, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S131072x256, .f32⟩
  | _, _ => ⟨S131072x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  dot_S131072x100_S100x1024_S131072x1024_1_0_0_1_n_n_wf : DotDims.WF S131072x100 S100x1024 S131072x1024 [1] [0] [0] [1] [] []
  dot_S131072x256_S256x1024_S131072x1024_1_0_0_1_n_n_wf : DotDims.WF S131072x256 S256x1024 S131072x1024 [1] [0] [0] [1] [] []

variable [Facts₀]

def dot_S131072x100_S100x1024_S131072x1024_1_0_0_1_n_n : DotDims S131072x100 S100x1024 S131072x1024 where
  lhsContracting := [1]
  rhsContracting := [0]
  lhsNonContracting := [0]
  rhsNonContracting := [1]
  lhsBatch := []
  rhsBatch := []
  wf := dot_S131072x100_S100x1024_S131072x1024_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf

class Facts : Prop extends Facts₀ where

variable [Facts]
-- ==== Proof.Cell.lean ====
/-
  The LSTM cell on ONE batch row, over the extended reals.

  A row of the two results depends only on the same row of the input, of the previous hidden state and of the
  previous cell state, and on the stacked weights and biases. With the gate axis of length 1024 = 4 · 256 laid out
  as input gate, forget gate, candidate, output gate, the pre-activation of gate column k is

      gate k = (Σ_a x[a] · Wx[a, k] + bx[k]) + (Σ_b h[b] · Wh[b, k] + bh[k]),

  the new cell state at hidden unit j is  σ(gate (256 + j)) · C[j] + σ(gate j) · tanh (gate (512 + j)),
  and the new hidden state is  σ(gate (768 + j)) · tanh (new cell state at j),
  where σ z = 1 / (1 + e^(-z)) and tanh are the extended-real functions (σ ⊥ = 0, σ ⊤ = 1, tanh ⊥ = -1, tanh ⊤ = 1).

  Two small facts join the two programs to this one function. The sum of the four summands of a gate may be
  grouped either way: addition on the extended reals is associative (no finiteness is used). And the quotient
  1 / (1 + e^(-z)) written with the float literal 0x3F800000 for 1 is σ z, the literal being exactly one.
-/
import Idealize.ShloMosaic.PureOps.Ideal
import Idealize.ShloMosaic.Lib.ValueIdx

noncomputable section

open Idealize.ShloMosaic Idealize.ShloMosaic.ValueIdx
open scoped BigOperators

namespace Cert.LstmCell

/-- Column o + j of the stacked gate axis: hidden unit j of the gate whose columns start at o. -/
abbrev gcol (o : Nat) (ho : o + 256 ≤ 1024) (j : Fin 256) : Fin 1024 := ⟨o + j.val, by have := j.isLt; omega⟩

/-- The pre-activation of gate column k for one row: the input row against column k of Wx plus its bias,
    plus the hidden row against column k of Wh plus its bias. -/
def gate (xr : Fin 100 → EReal) (hr : Fin 256 → EReal)
    (Wx : (⟨2, ![100, 1024]⟩ : Shape).Idx → EReal) (Wh : (⟨2, ![256, 1024]⟩ : Shape).Idx → EReal)
    (bx bh : (⟨1, ![1024]⟩ : Shape).Idx → EReal) (k : Fin 1024) : EReal :=
  ((∑ a : Fin 100, xr a * Wx (ix2 a k)) + bx (ix1 k)) + ((∑ b : Fin 256, hr b * Wh (ix2 b k)) + bh (ix1 k))

/-- The same four summands added from the left, one after the other, give the same gate: associativity of
    addition on the extended reals. -/
theorem gate_of_left_sum (xr : Fin 100 → EReal) (hr : Fin 256 → EReal)
    (Wx : (⟨2, ![100, 1024]⟩ : Shape).Idx → EReal) (Wh : (⟨2, ![256, 1024]⟩ : Shape).Idx → EReal)
    (bx bh : (⟨1, ![1024]⟩ : Shape).Idx → EReal) (k : Fin 1024) :
    (((∑ a : Fin 100, xr a * Wx (ix2 a k)) + bx (ix1 k)) + (∑ b : Fin 256, hr b * Wh (ix2 b k))) + bh (ix1 k)
      = gate xr hr Wx Wh bx bh k := by
  unfold gate
  rw [add_assoc]

/-- The new cell state of one row at hidden unit j: the forget gate times the old cell state plus the input gate
    times the candidate. -/
def cellState (xr : Fin 100 → EReal) (hr cr : Fin 256 → EReal)
    (Wx : (⟨2, ![100, 1024]⟩ : Shape).Idx → EReal) (Wh : (⟨2, ![256, 1024]⟩ : Shape).Idx → EReal)
    (bx bh : (⟨1, ![1024]⟩ : Shape).Idx → EReal) (j : Fin 256) : EReal :=
  Ideal.logistic (gate xr hr Wx Wh bx bh (gcol 256 (by norm_num) j)) * cr j
    + Ideal.logistic (gate xr hr Wx Wh bx bh (gcol 0 (by norm_num) j)) * Ideal.tanh (gate xr hr Wx Wh bx bh (gcol 512 (by norm_num) j))

/-- The new hidden state of one row at hidden unit j: the output gate times tanh of the new cell state. -/
def hidden (xr : Fin 100 → EReal) (hr cr : Fin 256 → EReal)
    (Wx : (⟨2, ![100, 1024]⟩ : Shape).Idx → EReal) (Wh : (⟨2, ![256, 1024]⟩ : Shape).Idx → EReal)
    (bx bh : (⟨1, ![1024]⟩ : Shape).Idx → EReal) (j : Fin 256) : EReal :=
  Ideal.logistic (gate xr hr Wx Wh bx bh (gcol 768 (by norm_num) j)) * Ideal.tanh (cellState xr hr cr Wx Wh bx bh j)

/-- The float literal 0x3F800000 is exactly one. -/
theorem ofBits_one : Ideal.ofBits .f32 0x3F800000#32 = 1 := by
  simp [Ideal.ofBits, Ideal.ieee, -EReal.coe_mul]; norm_num

/-- The quotient 1 / (1 + e^(-z)), its ones written as that literal, is the logistic function at z. -/
theorem quotient_eq_logistic (z : EReal) :
    Ideal.div (Ideal.ofBits .f32 0x3F800000#32) (Ideal.ofBits .f32 0x3F800000#32 + Ideal.exp (-z)) = Ideal.logistic z := by
  rw [ofBits_one]; rfl

/-! ## The two result arrays, row by row -/

/-- The new cell state of the whole batch: row (i 0) of the three batch arrays through the cell, at unit (i 1). -/
def cOut (x : (⟨2, ![131072, 100]⟩ : Shape).Idx → EReal) (C h : (⟨2, ![131072, 256]⟩ : Shape).Idx → EReal)
    (Wx : (⟨2, ![100, 1024]⟩ : Shape).Idx → EReal) (Wh : (⟨2, ![256, 1024]⟩ : Shape).Idx → EReal)
    (bx bh : (⟨1, ![1024]⟩ : Shape).Idx → EReal) : (⟨2, ![131072, 256]⟩ : Shape).Idx → EReal := fun i =>
  cellState (fun a => x (ix2 (i 0 : Fin 131072) a)) (fun b => h (ix2 (i 0 : Fin 131072) b))
    (fun u => C (ix2 (i 0 : Fin 131072) u)) Wx Wh bx bh (i 1 : Fin 256)

/-- The new hidden state of the whole batch, likewise. -/
def hOut (x : (⟨2, ![131072, 100]⟩ : Shape).Idx → EReal) (C h : (⟨2, ![131072, 256]⟩ : Shape).Idx → EReal)
    (Wx : (⟨2, ![100, 1024]⟩ : Shape).Idx → EReal) (Wh : (⟨2, ![256, 1024]⟩ : Shape).Idx → EReal)
    (bx bh : (⟨1, ![1024]⟩ : Shape).Idx → EReal) : (⟨2, ![131072, 256]⟩ : Shape).Idx → EReal := fun i =>
  hidden (fun a => x (ix2 (i 0 : Fin 131072) a)) (fun b => h (ix2 (i 0 : Fin 131072) b))
    (fun u => C (ix2 (i 0 : Fin 131072) u)) Wx Wh bx bh (i 1 : Fin 256)

theorem cOut_apply (x : (⟨2, ![131072, 100]⟩ : Shape).Idx → EReal) (C h : (⟨2, ![131072, 256]⟩ : Shape).Idx → EReal)
    (Wx : (⟨2, ![100, 1024]⟩ : Shape).Idx → EReal) (Wh : (⟨2, ![256, 1024]⟩ : Shape).Idx → EReal)
    (bx bh : (⟨1, ![1024]⟩ : Shape).Idx → EReal) (r : Fin 131072) (j : Fin 256) :
    cOut x C h Wx Wh bx bh (ix2 r j)
      = cellState (fun a => x (ix2 r a)) (fun b => h (ix2 r b)) (fun u => C (ix2 r u)) Wx Wh bx bh j := rfl

theorem hOut_apply (x : (⟨2, ![131072, 100]⟩ : Shape).Idx → EReal) (C h : (⟨2, ![131072, 256]⟩ : Shape).Idx → EReal)
    (Wx : (⟨2, ![100, 1024]⟩ : Shape).Idx → EReal) (Wh : (⟨2, ![256, 1024]⟩ : Shape).Idx → EReal)
    (bx bh : (⟨1, ![1024]⟩ : Shape).Idx → EReal) (r : Fin 131072) (j : Fin 256) :
    hOut x C h Wx Wh bx bh (ix2 r j)
      = hidden (fun a => x (ix2 r a)) (fun b => h (ix2 r b)) (fun u => C (ix2 r u)) Wx Wh bx bh j := rfl

end Cert.LstmCell

end
-- ==== Proof.BlockCell.lean ====
/-
  One grid step of the kernel computes the LSTM cell on the 4096 rows of its block.

  The body's stacked gate value at row p of the block and gate column k is the cell's gate of row p of the input
  block and of the hidden-state block: each of the two matrix products into a zero accumulator is the sum over the
  contracted axis, each bias vector is laid out as one row and repeated over the 4096 rows, and the four summands
  are added from the left, which is the cell's gate by associativity. The block written to the first result is the
  cell state of those rows and the block written to the second is their hidden state: the body's logistic and tanh
  are the cell's, and the four slices read the gate value 256, 0, 512 and 768 columns along.
-/
import proofs.«119489_j59425167507716_1_alg».proof.Proof.Gen.KernelIdeal.Value
import proofs.«119489_j59425167507716_1_alg».proof.Proof.Cell
import Idealize.ShloMosaic.PureOps.Ideal.Laws
import Idealize.ShloMosaic.Lib.ValueLayout

noncomputable section

namespace Cert.KernelIdeal.BlockCell

open Cert.KernelIdeal Cert.KernelIdeal.Gen Idealize.ShloMosaic Idealize.ShloMosaic.TcCoe Idealize.ShloMosaic.ValueIdx
open Cert.LstmCell
open scoped BigOperators

/-! ## The two matrix products as sums -/

theorem lhs_x_0 (i : S4096x1024.Idx) (q : dot_S4096x100_S100x1024_S4096x1024_1_0_0_1_n_n.contr.Idx) :
    (dot_S4096x100_S100x1024_S4096x1024_1_0_0_1_n_n.lhsIdx i q 0).val = (i 0).val := by
  unfold DotDims.lhsIdx
  rw [dif_neg (show ¬(0 : Fin S4096x100.rank) ∈ dot_S4096x100_S100x1024_S4096x1024_1_0_0_1_n_n.lhsBatch by decide), dif_pos (show (0 : Fin S4096x100.rank) ∈ dot_S4096x100_S100x1024_S4096x1024_1_0_0_1_n_n.lhsNonContracting by decide)]
  rfl
theorem lhs_x_1 (i : S4096x1024.Idx) (q : dot_S4096x100_S100x1024_S4096x1024_1_0_0_1_n_n.contr.Idx) :
    (dot_S4096x100_S100x1024_S4096x1024_1_0_0_1_n_n.lhsIdx i q 1).val = (q ⟨0, by decide⟩).val :=
  dot_S4096x100_S100x1024_S4096x1024_1_0_0_1_n_n.lhsIdx_val_of_single rfl i q
theorem rhs_x_0 (i : S4096x1024.Idx) (q : dot_S4096x100_S100x1024_S4096x1024_1_0_0_1_n_n.contr.Idx) :
    (dot_S4096x100_S100x1024_S4096x1024_1_0_0_1_n_n.rhsIdx i q 0).val = (q ⟨0, by decide⟩).val :=
  dot_S4096x100_S100x1024_S4096x1024_1_0_0_1_n_n.rhsIdx_val_of_single rfl i q
theorem rhs_x_1 (i : S4096x1024.Idx) (q : dot_S4096x100_S100x1024_S4096x1024_1_0_0_1_n_n.contr.Idx) :
    (dot_S4096x100_S100x1024_S4096x1024_1_0_0_1_n_n.rhsIdx i q 1).val = (i 1).val := by
  unfold DotDims.rhsIdx
  rw [dif_neg (show ¬(1 : Fin S100x1024.rank) ∈ dot_S4096x100_S100x1024_S4096x1024_1_0_0_1_n_n.rhsBatch by decide), dif_pos (show (1 : Fin S100x1024.rank) ∈ dot_S4096x100_S100x1024_S4096x1024_1_0_0_1_n_n.rhsNonContracting by decide)]
  rfl

/-- The input block against the input weights, into zero, at (p, k): the sum over the 100 input features. -/
theorem input_product_apply (x : FVec Ideal S4096x100 .f32) (w : FVec Ideal S100x1024 .f32) (p : Fin 4096) (k : Fin 1024) :
    matmul (F := Ideal) (φ₁ := .f32) (φ₂ := .f32) dot_S4096x100_S100x1024_S4096x1024_1_0_0_1_n_n none x w (constant (F := Ideal) S4096x1024 .f32 0x00000000#32) (ix2 p k)
      = ∑ a : Fin 100, x (ix2 p a) * w (ix2 a k) := by
  simp only [matmul]
  rw [Ideal.matmul_constant_zero_apply, ← Equiv.sum_comp (contrEquiv1 dot_S4096x100_S100x1024_S4096x1024_1_0_0_1_n_n 100 rfl rfl).symm]
  refine Finset.sum_congr rfl fun a _ => ?_
  have hk := contrEquiv1_symm_val dot_S4096x100_S100x1024_S4096x1024_1_0_0_1_n_n 100 rfl rfl a
  have el : dot_S4096x100_S100x1024_S4096x1024_1_0_0_1_n_n.lhsIdx (ix2 p k) ((contrEquiv1 dot_S4096x100_S100x1024_S4096x1024_1_0_0_1_n_n 100 rfl rfl).symm a) = ix2 p a := funext fun d => Fin.ext (by
    match d with
    | ⟨0, _⟩ => exact lhs_x_0 _ _
    | ⟨1, _⟩ => exact (lhs_x_1 _ _).trans hk)
  have er : dot_S4096x100_S100x1024_S4096x1024_1_0_0_1_n_n.rhsIdx (ix2 p k) ((contrEquiv1 dot_S4096x100_S100x1024_S4096x1024_1_0_0_1_n_n 100 rfl rfl).symm a) = ix2 a k := funext fun d => Fin.ext (by
    match d with
    | ⟨0, _⟩ => exact (rhs_x_0 _ _).trans hk
    | ⟨1, _⟩ => exact rhs_x_1 _ _)
  rw [el, er]

theorem lhs_h_0 (i : S4096x1024.Idx) (q : dot_S4096x256_S256x1024_S4096x1024_1_0_0_1_n_n.contr.Idx) :
    (dot_S4096x256_S256x1024_S4096x1024_1_0_0_1_n_n.lhsIdx i q 0).val = (i 0).val := by
  unfold DotDims.lhsIdx
  rw [dif_neg (show ¬(0 : Fin S4096x256.rank) ∈ dot_S4096x256_S256x1024_S4096x1024_1_0_0_1_n_n.lhsBatch by decide), dif_pos (show (0 : Fin S4096x256.rank) ∈ dot_S4096x256_S256x1024_S4096x1024_1_0_0_1_n_n.lhsNonContracting by decide)]
  rfl
theorem lhs_h_1 (i : S4096x1024.Idx) (q : dot_S4096x256_S256x1024_S4096x1024_1_0_0_1_n_n.contr.Idx) :
    (dot_S4096x256_S256x1024_S4096x1024_1_0_0_1_n_n.lhsIdx i q 1).val = (q ⟨0, by decide⟩).val :=
  dot_S4096x256_S256x1024_S4096x1024_1_0_0_1_n_n.lhsIdx_val_of_single rfl i q
theorem rhs_h_0 (i : S4096x1024.Idx) (q : dot_S4096x256_S256x1024_S4096x1024_1_0_0_1_n_n.contr.Idx) :
    (dot_S4096x256_S256x1024_S4096x1024_1_0_0_1_n_n.rhsIdx i q 0).val = (q ⟨0, by decide⟩).val :=
  dot_S4096x256_S256x1024_S4096x1024_1_0_0_1_n_n.rhsIdx_val_of_single rfl i q
theorem rhs_h_1 (i : S4096x1024.Idx) (q : dot_S4096x256_S256x1024_S4096x1024_1_0_0_1_n_n.contr.Idx) :
    (dot_S4096x256_S256x1024_S4096x1024_1_0_0_1_n_n.rhsIdx i q 1).val = (i 1).val := by
  unfold DotDims.rhsIdx
  rw [dif_neg (show ¬(1 : Fin S256x1024.rank) ∈ dot_S4096x256_S256x1024_S4096x1024_1_0_0_1_n_n.rhsBatch by decide), dif_pos (show (1 : Fin S256x1024.rank) ∈ dot_S4096x256_S256x1024_S4096x1024_1_0_0_1_n_n.rhsNonContracting by decide)]
  rfl

/-- The hidden-state block against the hidden weights, into zero, at (p, k): the sum over the 256 hidden units. -/
theorem hidden_product_apply (h : FVec Ideal S4096x256 .f32) (w : FVec Ideal S256x1024 .f32) (p : Fin 4096) (k : Fin 1024) :
    matmul (F := Ideal) (φ₁ := .f32) (φ₂ := .f32) dot_S4096x256_S256x1024_S4096x1024_1_0_0_1_n_n none h w (constant (F := Ideal) S4096x1024 .f32 0x00000000#32) (ix2 p k)
      = ∑ b : Fin 256, h (ix2 p b) * w (ix2 b k) := by
  simp only [matmul]
  rw [Ideal.matmul_constant_zero_apply, ← Equiv.sum_comp (contrEquiv1 dot_S4096x256_S256x1024_S4096x1024_1_0_0_1_n_n 256 rfl rfl).symm]
  refine Finset.sum_congr rfl fun b _ => ?_
  have hk := contrEquiv1_symm_val dot_S4096x256_S256x1024_S4096x1024_1_0_0_1_n_n 256 rfl rfl b
  have el : dot_S4096x256_S256x1024_S4096x1024_1_0_0_1_n_n.lhsIdx (ix2 p k) ((contrEquiv1 dot_S4096x256_S256x1024_S4096x1024_1_0_0_1_n_n 256 rfl rfl).symm b) = ix2 p b := funext fun d => Fin.ext (by
    match d with
    | ⟨0, _⟩ => exact lhs_h_0 _ _
    | ⟨1, _⟩ => exact (lhs_h_1 _ _).trans hk)
  have er : dot_S4096x256_S256x1024_S4096x1024_1_0_0_1_n_n.rhsIdx (ix2 p k) ((contrEquiv1 dot_S4096x256_S256x1024_S4096x1024_1_0_0_1_n_n 256 rfl rfl).symm b) = ix2 b k := funext fun d => Fin.ext (by
    match d with
    | ⟨0, _⟩ => exact (rhs_h_0 _ _).trans hk
    | ⟨1, _⟩ => exact rhs_h_1 _ _)
  rw [el, er]

/-! ## A bias vector repeated over the rows -/

/-- A bias of length 1024, laid out as one row and repeated over the 4096 rows, reads its entry k at (p, k). -/
theorem bias_rows_apply (b : Vec Ideal S1024 .f32) (p : Fin 4096) (k : Fin 1024) :
    broadcastTo S4096x1024 (shapeCast S1x1024 b shapeCasts_S1024_S1x1024) broadcasts_S1x1024_S4096x1024 (ix2 p k) = b (ix1 k) := by
  rw [broadcastTo_1b_ab_apply, shapeCast_a_1a_apply]

/-! ## The gate value of a block row -/

/-- The body's stacked gate value at (p, k) is the gate of row p of the two batch blocks at column k. -/
theorem gates_apply (x : Vec Ideal S4096x100 .f32) (wx : Vec Ideal S100x1024 .f32) (bx : Vec Ideal S1024 .f32)
    (h : Vec Ideal S4096x256 .f32) (wh : Vec Ideal S256x1024 .f32) (bh : Vec Ideal S1024 .f32) (p : Fin 4096) (k : Fin 1024) :
    k0_pay1 x wx bx h wh bh (ix2 p k) = gate (fun a => x (ix2 p a)) (fun b => h (ix2 p b)) wx wh bx bh k := by
  unfold k0_pay1
  rw [addf_apply, addf_apply, addf_apply, input_product_apply, hidden_product_apply, bias_rows_apply, bias_rows_apply]
  exact gate_of_left_sum _ _ wx wh bx bh k

/-! ## The two written blocks -/

/-- The block written to the first result, at (p, q): the new cell state of row p at hidden unit q. -/
theorem cell_block_apply (x : Vec Ideal S4096x100 .f32) (wx : Vec Ideal S100x1024 .f32) (bx : Vec Ideal S1024 .f32)
    (h : Vec Ideal S4096x256 .f32) (wh : Vec Ideal S256x1024 .f32) (bh : Vec Ideal S1024 .f32) (c : Vec Ideal S4096x256 .f32)
    (p : Fin 4096) (q : Fin 256) :
    Cert.KernelIdeal.Value.E7 x wx bx h wh bh c (ix2 p q)
      = cellState (fun a => x (ix2 p a)) (fun b => h (ix2 p b)) (fun u => c (ix2 p u)) wx wh bx bh q := by
  have e0 : Cert.KernelIdeal.Value.ix7_0 (ix2 p q) = ix2 p (gcol 256 (by norm_num) q) :=
    funext fun d => Fin.ext (by match d with | ⟨0, _⟩ => rfl | ⟨1, _⟩ => exact Nat.add_comm _ _)
  have e1 : Cert.KernelIdeal.Value.ix7_1 (ix2 p q) = ix2 p q :=
    funext fun d => Fin.ext (by match d with | ⟨0, _⟩ => rfl | ⟨1, _⟩ => rfl)
  have e2 : Cert.KernelIdeal.Value.ix7_2 (ix2 p q) = ix2 p (gcol 0 (by norm_num) q) :=
    funext fun d => Fin.ext (by match d with | ⟨0, _⟩ => rfl | ⟨1, _⟩ => exact (Nat.zero_add _).symm)
  have e3 : Cert.KernelIdeal.Value.ix7_3 (ix2 p q) = ix2 p (gcol 512 (by norm_num) q) :=
    funext fun d => Fin.ext (by match d with | ⟨0, _⟩ => rfl | ⟨1, _⟩ => exact Nat.add_comm _ _)
  show FloatOps.addf (FloatOps.mulf (FloatOps.logistic (k0_pay1 x wx bx h wh bh (Cert.KernelIdeal.Value.ix7_0 (ix2 p q)))) (c (Cert.KernelIdeal.Value.ix7_1 (ix2 p q))))
      (FloatOps.mulf (FloatOps.logistic (k0_pay1 x wx bx h wh bh (Cert.KernelIdeal.Value.ix7_2 (ix2 p q)))) (FloatOps.tanh (k0_pay1 x wx bx h wh bh (Cert.KernelIdeal.Value.ix7_3 (ix2 p q))))) = _
  rw [e0, e1, e2, e3, gates_apply, gates_apply, gates_apply]
  rfl

/-- The block written to the second result, at (p, q): the new hidden state of row p at hidden unit q. -/
theorem hidden_block_apply (x : Vec Ideal S4096x100 .f32) (wx : Vec Ideal S100x1024 .f32) (bx : Vec Ideal S1024 .f32)
    (h : Vec Ideal S4096x256 .f32) (wh : Vec Ideal S256x1024 .f32) (bh : Vec Ideal S1024 .f32) (c : Vec Ideal S4096x256 .f32)
    (p : Fin 4096) (q : Fin 256) :
    Cert.KernelIdeal.Value.E8 x wx bx h wh bh c (ix2 p q)
      = hidden (fun a => x (ix2 p a)) (fun b => h (ix2 p b)) (fun u => c (ix2 p u)) wx wh bx bh q := by
  have e0 : Cert.KernelIdeal.Value.ix8_0 (ix2 p q) = ix2 p (gcol 768 (by norm_num) q) :=
    funext fun d => Fin.ext (by match d with | ⟨0, _⟩ => rfl | ⟨1, _⟩ => exact Nat.add_comm _ _)
  have e1 : Cert.KernelIdeal.Value.ix8_1 (ix2 p q) = ix2 p (gcol 256 (by norm_num) q) :=
    funext fun d => Fin.ext (by match d with | ⟨0, _⟩ => rfl | ⟨1, _⟩ => exact Nat.add_comm _ _)
  have e2 : Cert.KernelIdeal.Value.ix8_2 (ix2 p q) = ix2 p q :=
    funext fun d => Fin.ext (by match d with | ⟨0, _⟩ => rfl | ⟨1, _⟩ => rfl)
  have e3 : Cert.KernelIdeal.Value.ix8_3 (ix2 p q) = ix2 p (gcol 0 (by norm_num) q) :=
    funext fun d => Fin.ext (by match d with | ⟨0, _⟩ => rfl | ⟨1, _⟩ => exact (Nat.zero_add _).symm)
  have e4 : Cert.KernelIdeal.Value.ix8_4 (ix2 p q) = ix2 p (gcol 512 (by norm_num) q) :=
    funext fun d => Fin.ext (by match d with | ⟨0, _⟩ => rfl | ⟨1, _⟩ => exact Nat.add_comm _ _)
  show FloatOps.mulf (FloatOps.logistic (k0_pay1 x wx bx h wh bh (Cert.KernelIdeal.Value.ix8_0 (ix2 p q))))
      (FloatOps.tanh (FloatOps.addf (FloatOps.mulf (FloatOps.logistic (k0_pay1 x wx bx h wh bh (Cert.KernelIdeal.Value.ix8_1 (ix2 p q)))) (c (Cert.KernelIdeal.Value.ix8_2 (ix2 p q))))
        (FloatOps.mulf (FloatOps.logistic (k0_pay1 x wx bx h wh bh (Cert.KernelIdeal.Value.ix8_3 (ix2 p q)))) (FloatOps.tanh (k0_pay1 x wx bx h wh bh (Cert.KernelIdeal.Value.ix8_4 (ix2 p q))))))) = _
  rw [e0, e1, e2, e3, e4, gates_apply, gates_apply, gates_apply, gates_apply]
  rfl

end Cert.KernelIdeal.BlockCell

end
-- ==== Proof.Rows.lean ====
/-
  From the blocks the kernel writes to the two whole results.

  The grid has 32 steps. At step t the three batch windows (input, previous cell state, previous hidden state) and the
  two result windows sit at row block t, that is rows 4096 t to 4096 t + 4095, over all their columns; the four
  parameter windows (the two weight matrices and the two bias vectors) are whole arrays at every step. So row p of a
  batch block at step t is row 4096 t + p of the batch array, and what step t writes back to a result is, by the
  block-level fact that one step computes the LSTM cell on its rows, block t of the cell state (first result) or of the
  hidden state (second result) of the whole batch. Row r of a result lies in the block of step r / 4096, so the blocks
  cover the results, and each result array ends holding that one function of the seven argument arrays.
-/
import proofs.«119489_j59425167507716_1_alg».proof.Proof.BlockCell

noncomputable section

namespace Cert.KernelIdeal.Rows

open Cert.KernelIdeal Cert.KernelIdeal.Gen Idealize.ShloMosaic Idealize.ShloMosaic.TcCoe Idealize.SL.Sem Idealize.ShloMosaic.ValueIdx
open Cert.LstmCell
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-! ## Where each window's block sits, decided over the 32 grid steps -/

/-- The input window sits at row block t. -/
theorem index_0 : ∀ t : Fin cfg0.N, win0_0.index t (0 : Fin 2) = t.val ∧ win0_0.index t (1 : Fin 2) = 0 :=
  (by decide +kernel : ∀ t : Fin grid0.N, _)

/-- The previous cell state's window sits at row block t. -/
theorem index_1 : ∀ t : Fin cfg0.N, win0_1.index t (0 : Fin 2) = t.val ∧ win0_1.index t (1 : Fin 2) = 0 :=
  (by decide +kernel : ∀ t : Fin grid0.N, _)

/-- The previous hidden state's window sits at row block t. -/
theorem index_2 : ∀ t : Fin cfg0.N, win0_2.index t (0 : Fin 2) = t.val ∧ win0_2.index t (1 : Fin 2) = 0 :=
  (by decide +kernel : ∀ t : Fin grid0.N, _)

/-- The input weights' window is the whole matrix. -/
theorem index_3 : ∀ t : Fin cfg0.N, win0_3.index t (0 : Fin 2) = 0 ∧ win0_3.index t (1 : Fin 2) = 0 :=
  (by decide +kernel : ∀ t : Fin grid0.N, _)

/-- The hidden weights' window is the whole matrix. -/
theorem index_4 : ∀ t : Fin cfg0.N, win0_4.index t (0 : Fin 2) = 0 ∧ win0_4.index t (1 : Fin 2) = 0 :=
  (by decide +kernel : ∀ t : Fin grid0.N, _)

/-- The input bias's window is the whole vector. -/
theorem index_5 : ∀ t : Fin cfg0.N, win0_5.index t (0 : Fin 1) = 0 :=
  (by decide +kernel : ∀ t : Fin grid0.N, _)

/-- The hidden bias's window is the whole vector. -/
theorem index_6 : ∀ t : Fin cfg0.N, win0_6.index t (0 : Fin 1) = 0 :=
  (by decide +kernel : ∀ t : Fin grid0.N, _)

/-- The first result's window sits at row block t. -/
theorem index_7 : ∀ t : Fin cfg0.N, win0_7.index t (0 : Fin 2) = t.val ∧ win0_7.index t (1 : Fin 2) = 0 :=
  (by decide +kernel : ∀ t : Fin grid0.N, _)

/-- The second result's window sits at row block t. -/
theorem index_8 : ∀ t : Fin cfg0.N, win0_8.index t (0 : Fin 2) = t.val ∧ win0_8.index t (1 : Fin 2) = 0 :=
  (by decide +kernel : ∀ t : Fin grid0.N, _)

/-- Row p of the blocks of grid step t is row 4096 t + p of the batch. -/
def batchRow (t : Fin cfg0.N) (p : Fin 4096) : Fin 131072 :=
  ⟨4096 * t.val + p.val, by have ht : t.val < 32 := lt_of_lt_of_eq t.isLt N_0; have hp := p.isLt; omega⟩

theorem batchRow_val (t : Fin cfg0.N) (p : Fin 4096) : (batchRow t p).val = 4096 * t.val + p.val := rfl

/-! ## The blocks read off the argument arrays -/

/-- Row p of the input block at step t is row 4096 t + p of the input. -/
theorem x_rows (c : Dev nD) (t : Fin cfg0.N) (p : Fin 4096) (a : Fin 100) :
    (iblk m c 0 t : Vec Ideal S4096x100 .f32) (ix2 p a) = (V m c main_arg0 : Vec Ideal S131072x100 .f32) (ix2 (batchRow t p) a) := by
  obtain ⟨e0, e1⟩ := index_0 t
  unfold iblk
  rw [View.read_apply]
  show V m c main_arg0 _ = V m c main_arg0 _
  congr 1
  funext d
  apply Fin.ext
  match d with
  | ⟨0, _⟩ => show win0_0.index t (0 : Fin 2) * 4096 + 1 * p.val = 4096 * t.val + p.val; rw [e0]; omega
  | ⟨1, _⟩ => show win0_0.index t (1 : Fin 2) * 100 + 1 * a.val = a.val; rw [e1]; omega

/-- Row p of the previous cell state's block at step t is row 4096 t + p of it. -/
theorem c_rows (c : Dev nD) (t : Fin cfg0.N) (p : Fin 4096) (a : Fin 256) :
    (iblk m c 1 t : Vec Ideal S4096x256 .f32) (ix2 p a) = (V m c main_arg1 : Vec Ideal S131072x256 .f32) (ix2 (batchRow t p) a) := by
  obtain ⟨e0, e1⟩ := index_1 t
  unfold iblk
  rw [View.read_apply]
  show V m c main_arg1 _ = V m c main_arg1 _
  congr 1
  funext d
  apply Fin.ext
  match d with
  | ⟨0, _⟩ => show win0_1.index t (0 : Fin 2) * 4096 + 1 * p.val = 4096 * t.val + p.val; rw [e0]; omega
  | ⟨1, _⟩ => show win0_1.index t (1 : Fin 2) * 256 + 1 * a.val = a.val; rw [e1]; omega

/-- Row p of the previous hidden state's block at step t is row 4096 t + p of it. -/
theorem h_rows (c : Dev nD) (t : Fin cfg0.N) (p : Fin 4096) (a : Fin 256) :
    (iblk m c 2 t : Vec Ideal S4096x256 .f32) (ix2 p a) = (V m c main_arg2 : Vec Ideal S131072x256 .f32) (ix2 (batchRow t p) a) := by
  obtain ⟨e0, e1⟩ := index_2 t
  unfold iblk
  rw [View.read_apply]
  show V m c main_arg2 _ = V m c main_arg2 _
  congr 1
  funext d
  apply Fin.ext
  match d with
  | ⟨0, _⟩ => show win0_2.index t (0 : Fin 2) * 4096 + 1 * p.val = 4096 * t.val + p.val; rw [e0]; omega
  | ⟨1, _⟩ => show win0_2.index t (1 : Fin 2) * 256 + 1 * a.val = a.val; rw [e1]; omega

/-- The input weights' block is the whole matrix, at every step. -/
theorem wx_block (c : Dev nD) (t : Fin cfg0.N) : (iblk m c 3 t : Vec Ideal S100x1024 .f32) = V m c main_arg3 := by
  obtain ⟨e0, e1⟩ := index_3 t
  funext y
  unfold iblk
  rw [View.read_apply]
  show V m c main_arg3 _ = V m c main_arg3 y
  congr 1
  funext d
  apply Fin.ext
  match d with
  | ⟨0, _⟩ => show win0_3.index t (0 : Fin 2) * 100 + 1 * (y 0).val = (y 0).val; rw [e0]; omega
  | ⟨1, _⟩ => show win0_3.index t (1 : Fin 2) * 1024 + 1 * (y 1).val = (y 1).val; rw [e1]; omega

/-- The hidden weights' block is the whole matrix, at every step. -/
theorem wh_block (c : Dev nD) (t : Fin cfg0.N) : (iblk m c 4 t : Vec Ideal S256x1024 .f32) = V m c main_arg4 := by
  obtain ⟨e0, e1⟩ := index_4 t
  funext y
  unfold iblk
  rw [View.read_apply]
  show V m c main_arg4 _ = V m c main_arg4 y
  congr 1
  funext d
  apply Fin.ext
  match d with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega

/-- The input bias's block is the whole vector, at every step. -/
theorem bx_block (c : Dev nD) (t : Fin cfg0.N) : (iblk m c 5 t : Vec Ideal S1024 .f32) = V m c main_arg5 := by
  have e0 := index_5 t
  funext y
  unfold iblk
  rw [View.read_apply]
  show V m c main_arg5 _ = V m c main_arg5 y
  congr 1
  funext d
  apply Fin.ext
  match d with
  | ⟨0, _⟩ => show win0_5.index t (0 : Fin 1) * 1024 + 1 * (y 0).val = (y 0).val; rw [e0]; omega

/-- The hidden bias's block is the whole vector, at every step. -/
theorem bh_block (c : Dev nD) (t : Fin cfg0.N) : (iblk m c 6 t : Vec Ideal S1024 .f32) = V m c main_arg6 := by
  have e0 := index_6 t
  funext y
  unfold iblk
  rw [View.read_apply]
  show V m c main_arg6 _ = V m c main_arg6 y
  congr 1
  funext d
  apply Fin.ext
  match d with
  | ⟨0, _⟩ => show win0_6.index t (0 : Fin 1) * 1024 + 1 * (y 0).val = (y 0).val; rw [e0]; omega

/-! ## What each grid step writes back -/

/-- Entry (p, q) of the first result's block at step t is entry (4096 t + p, q) of the result. -/
theorem cell_emb (t : Fin cfg0.N) (p : Fin 4096) (q : Fin 256) :
    (((cfg0.win 7).blk t).view.emb : S4096x256.Idx → S131072x256.Idx) (ix2 p q) = ix2 (batchRow t p) q := by
  obtain ⟨e0, e1⟩ := index_7 t
  funext d
  apply Fin.ext
  match d with
  | ⟨0, _⟩ => show win0_7.index t (0 : Fin 2) * 4096 + 1 * p.val = 4096 * t.val + p.val; rw [e0]; omega
  | ⟨1, _⟩ => show win0_7.index t (1 : Fin 2) * 256 + 1 * q.val = q.val; rw [e1]; omega

/-- Entry (p, q) of the second result's block at step t is entry (4096 t + p, q) of the result. -/
theorem hidden_emb (t : Fin cfg0.N) (p : Fin 4096) (q : Fin 256) :
    (((cfg0.win 8).blk t).view.emb : S4096x256.Idx → S131072x256.Idx) (ix2 p q) = ix2 (batchRow t p) q := by
  obtain ⟨e0, e1⟩ := index_8 t
  funext d
  apply Fin.ext
  match d with
  | ⟨0, _⟩ => show win0_8.index t (0 : Fin 2) * 4096 + 1 * p.val = 4096 * t.val + p.val; rw [e0]; omega
  | ⟨1, _⟩ => show win0_8.index t (1 : Fin 2) * 256 + 1 * q.val = q.val; rw [e1]; omega

/-- Step t writes back to the first result block t of the batch's new cell state. -/
theorem flushed_cell (c : Dev nD) (t : Fin cfg0.N) :
    (dats m 0 c).flushed 7 t = ((cfg0.win 7).blk t).view.read (Elt Ideal) (cOut (V m c main_arg0) (V m c main_arg1) (V m c main_arg2) (V m c main_arg3) (V m c main_arg4) (V m c main_arg5) (V m c main_arg6)) := by
  rw [Cert.KernelIdeal.Value.flushed7]
  unfold out0_7
  simp only [View.ld_unit_zero (S := S4096x100) zeros2, View.ld_unit_zero (S := S100x1024) zeros2, View.ld_unit_zero (S := S1024) zeros1,
    View.ld_unit_zero (S := S4096x256) zeros2, View.ld_unit_zero (S := S256x1024) zeros2]
  funext j
  obtain ⟨p, q, rfl⟩ : ∃ (p : Fin 4096) (q : Fin 256), j = ix2 p q := ⟨j 0, j 1, eq_ix2 j⟩
  show (View.canon [(⟨r0_3, k0_pay2 (iblk m c 0 t) (iblk m c 3 t) (iblk m c 5 t) (iblk m c 2 t) (iblk m c 4 t) (iblk m c 6 t) (iblk m c 1 t)⟩ : View.Piece (Elt Ideal) S4096x256 .f32)] : Vec Ideal S4096x256 .f32) (ix2 p q)
    = cOut (V m c main_arg0) (V m c main_arg1) (V m c main_arg2) (V m c main_arg3) (V m c main_arg4) (V m c main_arg5) (V m c main_arg6) ((((cfg0.win 7).blk t).view.emb : S4096x256.Idx → S131072x256.Idx) (ix2 p q))
  refine (Cert.KernelIdeal.Value.canon7_eq (iblk m c 0 t) (iblk m c 3 t) (iblk m c 5 t) (iblk m c 2 t) (iblk m c 4 t) (iblk m c 6 t) (iblk m c 1 t) (ix2 p q)).trans ?_
  refine (BlockCell.cell_block_apply (iblk m c 0 t) (iblk m c 3 t) (iblk m c 5 t) (iblk m c 2 t) (iblk m c 4 t) (iblk m c 6 t) (iblk m c 1 t) p q).trans ?_
  rw [cell_emb t p q, cOut_apply, wx_block m c t, wh_block m c t, bx_block m c t, bh_block m c t,
    funext (x_rows m c t p), funext (h_rows m c t p), funext (c_rows m c t p)]

/-- Step t writes back to the second result block t of the batch's new hidden state. -/
theorem flushed_hidden (c : Dev nD) (t : Fin cfg0.N) :
    (dats m 0 c).flushed 8 t = ((cfg0.win 8).blk t).view.read (Elt Ideal) (hOut (V m c main_arg0) (V m c main_arg1) (V m c main_arg2) (V m c main_arg3) (V m c main_arg4) (V m c main_arg5) (V m c main_arg6)) := by
  rw [Cert.KernelIdeal.Value.flushed8]
  unfold out0_8
  simp only [View.ld_unit_zero (S := S4096x100) zeros2, View.ld_unit_zero (S := S100x1024) zeros2, View.ld_unit_zero (S := S1024) zeros1,
    View.ld_unit_zero (S := S4096x256) zeros2, View.ld_unit_zero (S := S256x1024) zeros2]
  funext j
  obtain ⟨p, q, rfl⟩ : ∃ (p : Fin 4096) (q : Fin 256), j = ix2 p q := ⟨j 0, j 1, eq_ix2 j⟩
  show (View.canon [(⟨r0_3, k0_pay3 (iblk m c 0 t) (iblk m c 3 t) (iblk m c 5 t) (iblk m c 2 t) (iblk m c 4 t) (iblk m c 6 t) (iblk m c 1 t)⟩ : View.Piece (Elt Ideal) S4096x256 .f32)] : Vec Ideal S4096x256 .f32) (ix2 p q)
    = hOut (V m c main_arg0) (V m c main_arg1) (V m c main_arg2) (V m c main_arg3) (V m c main_arg4) (V m c main_arg5) (V m c main_arg6) ((((cfg0.win 8).blk t).view.emb : S4096x256.Idx → S131072x256.Idx) (ix2 p q))
  refine (Cert.KernelIdeal.Value.canon8_eq (iblk m c 0 t) (iblk m c 3 t) (iblk m c 5 t) (iblk m c 2 t) (iblk m c 4 t) (iblk m c 6 t) (iblk m c 1 t) (ix2 p q)).trans ?_
  refine (BlockCell.hidden_block_apply (iblk m c 0 t) (iblk m c 3 t) (iblk m c 5 t) (iblk m c 2 t) (iblk m c 4 t) (iblk m c 6 t) (iblk m c 1 t) p q).trans ?_
  rw [hidden_emb t p q, hOut_apply, wx_block m c t, wh_block m c t, bx_block m c t, bh_block m c t,
    funext (x_rows m c t p), funext (h_rows m c t p), funext (c_rows m c t p)]

/-! ## The blocks cover the results -/

/-- An index of the result is in the block of grid step t iff each coordinate is in the block's range on its axis. -/
theorem mem_cell_block (t : Fin cfg0.N) (i : S131072x256.Idx) :
    i ∈ ((cfg0.win 7).blk t).view.set ↔ ∀ a : Fin 2, win0_7.index t a * S4096x256.size a ≤ (i a).val ∧ (i a).val < win0_7.index t a * S4096x256.size a + S4096x256.size a := by
  show i ∈ ((View.whole main_v0_0).slice (win0_7.rect t)).set ↔ _
  rw [View.set_slice_whole, Rect.mem_set_unit]
  exact Iff.rfl

/-- An index of the result is in the block of grid step t iff each coordinate is in the block's range on its axis. -/
theorem mem_hidden_block (t : Fin cfg0.N) (i : S131072x256.Idx) :
    i ∈ ((cfg0.win 8).blk t).view.set ↔ ∀ a : Fin 2, win0_8.index t a * S4096x256.size a ≤ (i a).val ∧ (i a).val < win0_8.index t a * S4096x256.size a + S4096x256.size a := by
  show i ∈ ((View.whole main_v0_1).slice (win0_8.rect t)).set ↔ _
  rw [View.set_slice_whole, Rect.mem_set_unit]
  exact Iff.rfl

/-- Every row of the result is written by the grid step its index divided by 4096 names. -/
theorem cell_covered (i : S131072x256.Idx) : ∃ t : Fin cfg0.N, (cfg0.win 7).flush t = true ∧ i ∈ ((cfg0.win 7).blk t).view.set := by
  have h0 : (i 0).val < 131072 := (i 0).isLt
  have h1 : (i 1).val < 256 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨e0, e1⟩ := index_7 t
  refine ⟨t, flush0_7 t, ?_⟩
  rw [mem_cell_block]
  intro a
  match a with
  | ⟨0, _⟩ => show win0_7.index t (0 : Fin 2) * 4096 ≤ (i 0).val ∧ (i 0).val < win0_7.index t (0 : Fin 2) * 4096 + 4096; rw [e0, ht]; omega
  | ⟨1, _⟩ => show win0_7.index t (1 : Fin 2) * 256 ≤ (i 1).val ∧ (i 1).val < win0_7.index t (1 : Fin 2) * 256 + 256; rw [e1]; omega

/-- Every row of the result is written by the grid step its index divided by 4096 names. -/
theorem hidden_covered (i : S131072x256.Idx) : ∃ t : Fin cfg0.N, (cfg0.win 8).flush t = true ∧ i ∈ ((cfg0.win 8).blk t).view.set := by
  have h0 : (i 0).val < 131072 := (i 0).isLt
  have h1 : (i 1).val < 256 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨e0, e1⟩ := index_8 t
  refine ⟨t, flush0_8 t, ?_⟩
  rw [mem_hidden_block]
  intro a
  match a with
  | ⟨0, _⟩ => show win0_8.index t (0 : Fin 2) * 4096 ≤ (i 0).val ∧ (i 0).val < win0_8.index t (0 : Fin 2) * 4096 + 4096; rw [e0, ht]; omega
  | ⟨1, _⟩ => show win0_8.index t (1 : Fin 2) * 256 ≤ (i 1).val ∧ (i 1).val < win0_8.index t (1 : Fin 2) * 256 + 256; rw [e1]; omega

/-- After the run the first result is the new cell state of the batch. -/
theorem final_cell (c : Dev nD) : (dats m 0 c).arrAt 7 cfg0.N = cOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_cell m c t) cell_covered

/-- After the run the second result is the new hidden state of the batch. -/
theorem final_hidden (c : Dev nD) : (dats m 0 c).arrAt 8 cfg0.N = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t _ => flushed_hidden m c t) hidden_covered

/-! ## The kernel's run, read -/

/-- Every weakly fair execution of the kernel's program ends with the first result at the new cell state and the second
    at the new hidden state of the batch, the seven arguments unchanged. -/
theorem run : θ_run defs (onTc (τ := τ) (main (F := Ideal))) ⟨m, fun _ => 0, ρ⟩ fun r => ∀ c : Dev nD,
      r.2.mem ((c : Thread nD τ).loc main_v0_0) = cOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_cell m c), (h c).2.1.trans (final_hidden m c), (h c).2.2⟩)
    (Cert.KernelIdeal.Value.run_blocks m ρ)

end Cert.KernelIdeal.Rows

end
-- ==== Proof.RefCell.lean ====
/-
  The reference computes the LSTM cell row by row.

  Its stacked gate array (the two products, each with its bias added, then summed) read at row r and gate column k
  is the cell's gate of row r of the input and of the hidden state at k: the two products are the two sums over the
  contracted axis, and each bias row is broadcast over the batch. Each of the four column slices reads that array
  256, 0, 512 or 768 columns along, the three quotients 1 / (1 + e^(-z)) are the logistic function, and what is left
  is the cell's own combination, so the two results are the cell state and the hidden state of the whole batch.
-/
import proofs.«119489_j59425167507716_1_alg».proof.Proof.Gen.ReferenceIdeal.Read
import proofs.«119489_j59425167507716_1_alg».proof.Proof.Cell

noncomputable section

namespace Cert.ReferenceIdeal.RefCell

open Cert.ReferenceIdeal Cert.ReferenceIdeal.Gen Cert.ReferenceIdeal.Read Idealize.ShloMosaic Idealize.ShloMosaic.ValueIdx
open Cert.LstmCell
open scoped BigOperators

/-- The stacked gate array at (r, k) is the gate of row r at column k. -/
theorem gates_apply (x0 : (⟨S131072x100, .f32⟩ : BufTy).Contents (Elt Ideal)) (x2 : (⟨S131072x256, .f32⟩ : BufTy).Contents (Elt Ideal))
    (x3 : (⟨S100x1024, .f32⟩ : BufTy).Contents (Elt Ideal)) (x4 : (⟨S256x1024, .f32⟩ : BufTy).Contents (Elt Ideal))
    (x5 x6 : (⟨S1024, .f32⟩ : BufTy).Contents (Elt Ideal)) (r : Fin 131072) (k : Fin 1024) :
    val_main_v8 (F := Ideal) x0 x2 x3 x4 x5 x6 (ix2 r k)
      = gate (fun a => x0 (ix2 r a)) (fun b => x2 (ix2 r b)) x3 x4 x5 x6 k := by
  have el0 : ∀ a : Fin 100, lidx_main_v0 (ix2 r k) a = ix2 r a := fun a =>
    funext fun d => Fin.ext (by match d with | ⟨0, _⟩ => rfl | ⟨1, _⟩ => rfl)
  have er0 : ∀ a : Fin 100, ridx_main_v0 (ix2 r k) a = ix2 a k := fun a =>
    funext fun d => Fin.ext (by match d with | ⟨0, _⟩ => rfl | ⟨1, _⟩ => rfl)
  have el4 : ∀ b : Fin 256, lidx_main_v4 (ix2 r k) b = ix2 r b := fun b =>
    funext fun d => Fin.ext (by match d with | ⟨0, _⟩ => rfl | ⟨1, _⟩ => rfl)
  have er4 : ∀ b : Fin 256, ridx_main_v4 (ix2 r k) b = ix2 b k := fun b =>
    funext fun d => Fin.ext (by match d with | ⟨0, _⟩ => rfl | ⟨1, _⟩ => rfl)
  have eb5 : idx_main_v1 (idx_main_v2 (ix2 r k)) = ix1 k :=
    funext fun d => Fin.ext (by match d with | ⟨0, _⟩ => rfl)
  have eb6 : idx_main_v5 (idx_main_v6 (ix2 r k)) = ix1 k :=
    funext fun d => Fin.ext (by match d with | ⟨0, _⟩ => rfl)
  rw [val_main_v8_apply, val_main_v3_apply, val_main_v7_apply, val_main_v0_apply, val_main_v4_apply, val_main_v2_apply,
    val_main_v1_apply, val_main_v6_apply, val_main_v5_apply]
  simp only [el0, er0, el4, er4, eb5, eb6, Ideal.addf_def]
  rfl

/-- The column the slice that starts at 256 reads at (r, j). -/
theorem col_forget (r : Fin 131072) (j : Fin 256) : idx_main_v10 (ix2 r j) = ix2 r (gcol 256 (by norm_num) j) :=
  funext fun d => Fin.ext (by match d with | ⟨0, _⟩ => rfl | ⟨1, _⟩ => rfl)
/-- The column the slice that starts at 0 reads at (r, j). -/
theorem col_input (r : Fin 131072) (j : Fin 256) : idx_main_v9 (ix2 r j) = ix2 r (gcol 0 (by norm_num) j) :=
  funext fun d => Fin.ext (by match d with | ⟨0, _⟩ => rfl | ⟨1, _⟩ => exact (Nat.zero_add _).symm)
/-- The column the slice that starts at 512 reads at (r, j). -/
theorem col_cand (r : Fin 131072) (j : Fin 256) : idx_main_v11 (ix2 r j) = ix2 r (gcol 512 (by norm_num) j) :=
  funext fun d => Fin.ext (by match d with | ⟨0, _⟩ => rfl | ⟨1, _⟩ => rfl)
/-- The column the slice that starts at 768 reads at (r, j). -/
theorem col_output (r : Fin 131072) (j : Fin 256) : idx_main_v12 (ix2 r j) = ix2 r (gcol 768 (by norm_num) j) :=
  funext fun d => Fin.ext (by match d with | ⟨0, _⟩ => rfl | ⟨1, _⟩ => rfl)

/-- The first result is the new cell state of the whole batch. -/
theorem cell_state_eq (x0 : (⟨S131072x100, .f32⟩ : BufTy).Contents (Elt Ideal)) (x1 x2 : (⟨S131072x256, .f32⟩ : BufTy).Contents (Elt Ideal))
    (x3 : (⟨S100x1024, .f32⟩ : BufTy).Contents (Elt Ideal)) (x4 : (⟨S256x1024, .f32⟩ : BufTy).Contents (Elt Ideal))
    (x5 x6 : (⟨S1024, .f32⟩ : BufTy).Contents (Elt Ideal)) :
    val_main_v34 (F := Ideal) x0 x1 x2 x3 x4 x5 x6 = cOut x0 x1 x2 x3 x4 x5 x6 := by
  funext i
  obtain ⟨r, j, rfl⟩ : ∃ (r : Fin 131072) (j : Fin 256), i = ix2 r j := ⟨i 0, i 1, eq_ix2 i⟩
  rw [cOut_apply]
  simp only [val_main_v34_apply, val_main_v32_apply, val_main_v33_apply, val_main_v24_apply, val_main_v18_apply,
    val_main_v25_apply, val_main_v23_apply, val_main_v17_apply, val_main_cst_2_apply, val_main_cst_0_apply,
    val_main_v22_apply, val_main_v16_apply, val_main_v21_apply, val_main_v15_apply, val_main_cst_1_apply, val_main_cst_apply,
    val_main_v20_apply, val_main_v14_apply, val_main_v19_apply, val_main_v13_apply, val_main_v10_apply, val_main_v9_apply,
    val_main_v11_apply, col_forget, col_input, col_cand, gates_apply,
    Ideal.addf_def, Ideal.mulf_def, Ideal.hostDivf_def, Ideal.hostUnary_exp_def, Ideal.hostUnary_tanh_def,
    Ideal.hostNegf_def, Ideal.negf_def, Ideal.ofBits_def, quotient_eq_logistic]
  rfl

/-- The second result is the new hidden state of the whole batch. -/
theorem hidden_eq (x0 : (⟨S131072x100, .f32⟩ : BufTy).Contents (Elt Ideal)) (x1 x2 : (⟨S131072x256, .f32⟩ : BufTy).Contents (Elt Ideal))
    (x3 : (⟨S100x1024, .f32⟩ : BufTy).Contents (Elt Ideal)) (x4 : (⟨S256x1024, .f32⟩ : BufTy).Contents (Elt Ideal))
    (x5 x6 : (⟨S1024, .f32⟩ : BufTy).Contents (Elt Ideal)) :
    val_main_v36 (F := Ideal) x0 x1 x2 x3 x4 x5 x6 = hOut x0 x1 x2 x3 x4 x5 x6 := by
  funext i
  obtain ⟨r, j, rfl⟩ : ∃ (r : Fin 131072) (j : Fin 256), i = ix2 r j := ⟨i 0, i 1, eq_ix2 i⟩
  rw [hOut_apply, val_main_v36_apply, val_main_v35_apply, cell_state_eq, cOut_apply]
  simp only [val_main_v31_apply, val_main_v30_apply, val_main_cst_4_apply, val_main_v29_apply, val_main_v28_apply,
    val_main_cst_3_apply, val_main_v27_apply, val_main_v26_apply, val_main_v12_apply, col_output, gates_apply,
    Ideal.addf_def, Ideal.mulf_def, Ideal.hostDivf_def, Ideal.hostUnary_exp_def, Ideal.hostUnary_tanh_def,
    Ideal.hostNegf_def, Ideal.negf_def, Ideal.ofBits_def, quotient_eq_logistic]
  rfl

end Cert.ReferenceIdeal.RefCell

end
-- ==== Proof.lean ====
/-
  A fused LSTM cell against its reference, over the extended reals.

  Both programs take a batch of 131072 rows: the input x (100 features), the previous cell state C and the previous
  hidden state h (256 units each), the stacked weights Wx (100 by 1024) and Wh (256 by 1024) and the stacked biases
  bx and bh (1024 each; the gate axis is input gate, forget gate, candidate, output gate, 256 columns each). Row by
  row they compute

      gate k = (Σ_a x[a] Wx[a, k] + bx[k]) + (Σ_b h[b] Wh[b, k] + bh[k]),
      C'[j]  = σ(gate (256 + j)) · C[j] + σ(gate j) · tanh (gate (512 + j)),
      h'[j]  = σ(gate (768 + j)) · tanh (C'[j]),

  and return (C', h'). The kernel walks the batch in 32 blocks of 4096 rows with the weights and biases resident,
  adds the four summands of a gate from the left, and applies the logistic function as one operation; the reference
  works on whole arrays, adds the two biased products to each other, and spells the logistic function out as
  1 / (1 + e^(-z)). On the extended reals these agree: addition is associative, that quotient IS the logistic
  function (its ones being the float literal for exactly one), a matrix product into a zero accumulator and the
  host's product are the same sum over the contracted axis, and the hyperbolic tangent is one function on both sides.
  No step needs the inputs to be finite, so the precondition is never opened.

  Proof/Cell.lean states the cell on one row and the two small laws; Proof/RefCell.lean reads the reference's
  generated run as the cell, index by index; Proof/BlockCell.lean reads one grid step's two written blocks as the
  cell on the block's rows; Proof/Rows.lean goes from the blocks to the whole result arrays. Here the five claims
  are assembled: the two kernel frames are the generated ones, the reference's frame is its generated run with the
  results dropped, the idealization rewrote nothing, and the two runs end at the same two functions of arguments
  that agree.
-/
import proofs.«119489_j59425167507716_1_alg».proof.Defs
import proofs.«119489_j59425167507716_1_alg».proof.Proof.Gen.Kernel
import proofs.«119489_j59425167507716_1_alg».proof.Proof.Gen.Kernel.Skeleton
import proofs.«119489_j59425167507716_1_alg».proof.Proof.Gen.Kernel.Launch
import proofs.«119489_j59425167507716_1_alg».proof.Proof.Gen.Kernel.Points
import proofs.«119489_j59425167507716_1_alg».proof.Proof.Gen.Kernel.Frame
import proofs.«119489_j59425167507716_1_alg».proof.Proof.Gen.KernelIdeal
import proofs.«119489_j59425167507716_1_alg».proof.Proof.Gen.KernelIdeal.Skeleton
import proofs.«119489_j59425167507716_1_alg».proof.Proof.Gen.KernelIdeal.Launch
import proofs.«119489_j59425167507716_1_alg».proof.Proof.Gen.KernelIdeal.Points
import proofs.«119489_j59425167507716_1_alg».proof.Proof.Gen.KernelIdeal.Frame
import proofs.«119489_j59425167507716_1_alg».proof.Proof.Gen.ReferenceIdeal
import proofs.«119489_j59425167507716_1_alg».proof.Proof.Gen.Pre_finite_inputs
import proofs.«119489_j59425167507716_1_alg».proof.Proof.Gen.KernelIdeal.Value
import proofs.«119489_j59425167507716_1_alg».proof.Proof.Gen.ReferenceIdeal.Run
import proofs.«119489_j59425167507716_1_alg».proof.Proof.Gen.ReferenceIdeal.Read
import proofs.«119489_j59425167507716_1_alg».proof.Proof.Rows
import proofs.«119489_j59425167507716_1_alg».proof.Proof.RefCell
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel's two results are the new cell state and the new hidden state of the
    batch, and so are the reference's. -/
theorem algebraic : Cert.algebraic_KernelIdeal_ReferenceIdeal := by
  intro m ρ m' ρ' _ hagree
  refine ⟨_, _, Cert.KernelIdeal.Rows.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, Cert.ReferenceIdeal.RefCell.cell_state_eq,
      (hagree c).1, (hagree c).2.1, (hagree c).2.2.1, (hagree c).2.2.2.1, (hagree c).2.2.2.2.1, (hagree c).2.2.2.2.2.1, (hagree c).2.2.2.2.2.2]
  · rw [Cert.ReferenceIdeal.Read.val_main_v36_eq, Cert.ReferenceIdeal.RefCell.hidden_eq,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
